-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S756x128 : Shape := ⟨2, ![756, 128]⟩
abbrev S756 : Shape := ⟨1, ![756]⟩
abbrev S756x756 : Shape := ⟨2, ![756, 756]⟩
abbrev S16x756 : Shape := ⟨2, ![16, 756]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S756x128 : S_.BroadcastsInDim S756x128 (![] : Fin 0 → Fin S756x128.rank)
  reducesTo_S756x128_S_d0_1 : S756x128.ReducesTo [0, 1] S_
  bcast_S_S756 : S_.BroadcastsInDim S756 (![] : Fin 0 → Fin S756.rank)
  reducesTo_S756_S_d0 : S756.ReducesTo [0] S_
  bcast_S_S756x756 : S_.BroadcastsInDim S756x756 (![] : Fin 0 → Fin S756x756.rank)
  reducesTo_S756x756_S_d0_1 : S756x756.ReducesTo [0, 1] S_
  bcast_S_S16x756 : S_.BroadcastsInDim S16x756 (![] : Fin 0 → Fin S16x756.rank)
  reducesTo_S16x756_S_d0_1 : S16x756.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S756 .f32) (main_arg5 : FVec F S16x756 .f32) (main_arg6 : FVec F S16 .f32) (main_v13 : IVec S_ 1) (main_v16 : IVec S756x756 1) : IVec S_ 1 :=
  let main_c_5 : IVec S_ 1 := constantI S_ 1 1#1
  let main_v17 : IVec S_ 1 := (fun x v => Host.reduce IntOp.andi x v reducesTo_S756x756_S_d0_1 h_S_) main_v16 main_c_5
  let main_v18 : IVec S_ 1 := andi main_v13 main_v17
  let main_v19 : FVec F S756 .f32 := Host.absf main_arg4
  let main_cst_6 : FVec F S_ .f32 := constant S_ .f32 0x7F800000#32
  let main_v20 : FVec F S756 .f32 := broadcastInDim S756 ![] bcast_S_S756 main_cst_6
  let main_v21 : IVec S756 1 := cmpf .olt main_v19 main_v20
  let main_c_7 : IVec S_ 1 := constantI S_ 1 1#1
  let main_v22 : IVec S_ 1 := (fun x v => Host.reduce IntOp.andi x v reducesTo_S756_S_d0 h_S_) main_v21 main_c_7
  let main_v23 : IVec S_ 1 := andi main_v18 main_v22
  let main_v24 : FVec F S16x756 .f32 := Host.absf main_arg5
  let main_cst_8 : FVec F S_ .f32 := constant S_ .f32 0x7F800000#32
  let main_v25 : FVec F S16x756 .f32 := broadcastInDim S16x756 ![] bcast_S_S16x756 main_cst_8
  let main_v26 : IVec S16x756 1 := cmpf .olt main_v24 main_v25
  let main_c_9 : IVec S_ 1 := constantI S_ 1 1#1
  let main_v27 : IVec S_ 1 := (fun x v => Host.reduce IntOp.andi x v reducesTo_S16x756_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S16384x128 .f32) (main_arg1 : FVec F S756x128 .f32) (main_arg2 : FVec F S756 .f32) (main_arg3 : FVec F S756x756 .f32) (main_arg4 : FVec F S756 .f32) (main_arg5 : FVec F S16x756 .f32) (main_arg6 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S756x128 .f32 := Host.absf main_arg1
  let main_cst_0 : FVec F S_ .f32 := constant S_ .f32 0x7F800000#32
  let main_v5 : FVec F S756x128 .f32 := broadcastInDim S756x128 ![] bcast_S_S756x128 main_cst_0
  let main_v6 : IVec S756x128 1 := cmpf .olt main_v4 main_v5
  let main_c_1 : IVec S_ 1 := constantI S_ 1 1#1
  let main_v7 : IVec S_ 1 := (fun x v => Host.reduce IntOp.andi x v reducesTo_S756x128_S_d0_1 h_S_) main_v6 main_c_1
  let main_v8 : IVec S_ 1 := andi main_v3 main_v7
  let main_v9 : FVec F S756 .f32 := Host.absf main_arg2
  let main_cst_2 : FVec F S_ .f32 := constant S_ .f32 0x7F800000#32
  let main_v10 : FVec F S756 .f32 := broadcastInDim S756 ![] bcast_S_S756 main_cst_2
  let main_v11 : IVec S756 1 := cmpf .olt main_v9 main_v10
  let main_c_3 : IVec S_ 1 := constantI S_ 1 1#1
  let main_v12 : IVec S_ 1 := (fun x v => Host.reduce IntOp.andi x v reducesTo_S756_S_d0 h_S_) main_v11 main_c_3
  let main_v13 : IVec S_ 1 := andi main_v8 main_v12
  let main_v14 : FVec F S756x756 .f32 := Host.absf main_arg3
  let main_cst_4 : FVec F S_ .f32 := constant S_ .f32 0x7F800000#32
  let main_v15 : FVec F S756x756 .f32 := broadcastInDim S756x756 ![] bcast_S_S756x756 main_cst_4
  let main_v16 : IVec S756x756 1 := cmpf .olt main_v14 main_v15
  fn_part1 (F := F) main_arg4 main_arg5 main_arg6 main_v13 main_v16
-- ==== Kernel.lean ====
abbrev S16384x128 : Shape := ⟨2, ![16384, 128]⟩
abbrev S756x128 : Shape := ⟨2, ![756, 128]⟩
abbrev S756 : Shape := ⟨1, ![756]⟩
abbrev S756x756 : Shape := ⟨2, ![756, 756]⟩
abbrev S16x756 : Shape := ⟨2, ![16, 756]⟩
abbrev S16 : Shape := ⟨1, ![16]⟩
abbrev S1x756 : Shape := ⟨2, ![1, 756]⟩
abbrev S1x16 : Shape := ⟨2, ![1, 16]⟩
abbrev S16384x16 : Shape := ⟨2, ![16384, 16]⟩
abbrev S8192x128 : Shape := ⟨2, ![8192, 128]⟩
abbrev S8192x16 : Shape := ⟨2, ![8192, 16]⟩
abbrev S8192x756 : Shape := ⟨2, ![8192, 756]⟩

abbrev nBuf : Space → Nat
  | .hbm => 11
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S756x128, .f32⟩
  | .hbm, ⟨2, _⟩ => ⟨S756, .f32⟩
  | .hbm, ⟨3, _⟩ => ⟨S756x756, .f32⟩
  | .hbm, ⟨4, _⟩ => ⟨S756, .f32⟩
  | .hbm, ⟨5, _⟩ => ⟨S16x756, .f32⟩
  | .hbm, ⟨6, _⟩ => ⟨S16, .f32⟩
  | .hbm, ⟨7, _⟩ => ⟨S1x756, .f32⟩
  | .hbm, ⟨8, _⟩ => ⟨S1x756, .f32⟩
  | .hbm, ⟨9, _⟩ => ⟨S1x16, .f32⟩
  | .hbm, ⟨10, _⟩ => ⟨S16384x16, .f32⟩
  | .local _ .vmem, ⟨0, _⟩ => ⟨S8192x128, .f32⟩
  | .local _ .vmem, ⟨1, _⟩ => ⟨S8192x128, .f32⟩
  | .local _ .vmem, ⟨2, _⟩ => ⟨S756x128, .f32⟩
  | .local _ .vmem, ⟨3, _⟩ => ⟨S1x756, .f32⟩
  | .local _ .vmem, ⟨4, _⟩ => ⟨S756x756, .f32⟩
  | .local _ .vmem, ⟨5, _⟩ => ⟨S1x756, .f32⟩
  | .local _ .vmem, ⟨6, _⟩ => ⟨S16x756, .f32⟩
  | .local _ .vmem, ⟨7, _⟩ => ⟨S1x16, .f32⟩
  | .local _ .vmem, ⟨8, _⟩ => ⟨S8192x16, .f32⟩
  | .local _ .vmem, ⟨9, _⟩ => ⟨S8192x16, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S756x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x756 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S756x756 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x756 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x756 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S756_S1x756 : S756.ShapeCasts S1x756
  shapeCasts_S16_S1x16 : S16.ShapeCasts S1x16
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S756x128_S756x128_0_0 : ∀ a, (![0, 0] : Fin 2 → Nat) a + S756x128.size a ≤ S756x128.size a
  h_S756x128 : 0 < S756x128.numel
  inb_S1x756_S1x756_0_0 : ∀ a, (![0, 0] : Fin 2 → Nat) a + S1x756.size a ≤ S1x756.size a
  h_S1x756 : 0 < S1x756.numel
  shapeCasts_S1x756_S1x756 : S1x756.ShapeCasts S1x756
  broadcasts_S1x756_S8192x756 : S1x756.Broadcasts S8192x756
  inb_S756x756_S756x756_0_0 : ∀ a, (![0, 0] : Fin 2 → Nat) a + S756x756.size a ≤ S756x756.size a
  h_S756x756 : 0 < S756x756.numel
  inb_S16x756_S16x756_0_0 : ∀ a, (![0, 0] : Fin 2 → Nat) a + S16x756.size a ≤ S16x756.size a
  h_S16x756 : 0 < S16x756.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  dot_S8192x128_S756x128_S8192x756_1_1_0_0_n_n_wf : DotDims.WF S8192x128 S756x128 S8192x756 [1] [1] [0] [0] [] []
  dot_S8192x756_S756x756_S8192x756_1_1_0_0_n_n_wf : DotDims.WF S8192x756 S756x756 S8192x756 [1] [1] [0] [0] [] []
  dot_S8192x756_S16x756_S8192x16_1_1_0_0_n_n_wf : DotDims.WF S8192x756 S16x756 S8192x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S16384x128.size a
  hwx0_0 : ∀ i : grid0.Coords, EltTy.bits .f32 = 32 ∨ (Rect.block (s := S16384x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S756x128.size a ≤ S756x128.size a
  hwx0_1 : ∀ i : grid0.Coords, EltTy.bits .f32 = 32 ∨ (Rect.block (s := S756x128) S756x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x756.size a ≤ S1x756.size a
  hwx0_2 : ∀ i : grid0.Coords, EltTy.bits .f32 = 32 ∨ (Rect.block (s := S1x756) S1x756.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S756x756.size a ≤ S756x756.size a
  hwx0_3 : ∀ i : grid0.Coords, EltTy.bits .f32 = 32 ∨ (Rect.block (s := S756x756) S756x756.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x756.size a ≤ S1x756.size a
  hwx0_4 : ∀ i : grid0.Coords, EltTy.bits .f32 = 32 ∨ (Rect.block (s := S1x756) S1x756.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x756.size a ≤ S16x756.size a
  hwx0_5 : ∀ i : grid0.Coords, EltTy.bits .f32 = 32 ∨ (Rect.block (s := S16x756) S16x756.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x16.size a ≤ S16384x16.size a
  hwx0_7 : ∀ i : grid0.Coords, EltTy.bits .f32 = 32 ∨ (Rect.block (s := S16384x16) S8192x16.size (cc0_transform_7 i) (hinb0_7 i)).WholeWords (EltTy.packing .f32)

variable [Facts₀]

def dot_S8192x128_S756x128_S8192x756_1_1_0_0_n_n : DotDims S8192x128 S756x128 S8192x756 where
  lhsContracting := [1]
  rhsContracting := [1]
  lhsNonContracting := [0]
  rhsNonContracting := [0]
  lhsBatch := []
  rhsBatch := []
  wf := dot_S8192x128_S756x128_S8192x756_1_1_0_0_n_n_wf
def dot_S8192x756_S756x756_S8192x756_1_1_0_0_n_n : DotDims S8192x756 S756x756 S8192x756 where
  lhsContracting := [1]
  rhsContracting := [1]
  lhsNonContracting := [0]
  rhsNonContracting := [0]
  lhsBatch := []
  rhsBatch := []
  wf := dot_S8192x756_S756x756_S8192x756_1_1_0_0_n_n_wf
def dot_S8192x756_S16x756_S8192x16_1_1_0_0_n_n : DotDims S8192x756 S16x756 S8192x16 where
  lhsContracting := [1]
  rhsContracting := [1]
  lhsNonContracting := [0]
  rhsNonContracting := [0]
  lhsBatch := []
  rhsBatch := []
  wf := dot_S8192x756_S16x756_S8192x16_1_1_0_0_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S756x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x756.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S756x756.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x756.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x756.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x128 : Shape := ⟨2, ![16384, 128]⟩
abbrev S756x128 : Shape := ⟨2, ![756, 128]⟩
abbrev S756 : Shape := ⟨1, ![756]⟩
abbrev S756x756 : Shape := ⟨2, ![756, 756]⟩
abbrev S16x756 : Shape := ⟨2, ![16, 756]⟩
abbrev S16 : Shape := ⟨1, ![16]⟩
abbrev S128x756 : Shape := ⟨2, ![128, 756]⟩
abbrev S16384x756 : Shape := ⟨2, ![16384, 756]⟩
abbrev S1x756 : Shape := ⟨2, ![1, 756]⟩
abbrev S_ : Shape := ⟨0, ![]⟩
abbrev S756x16 : Shape := ⟨2, ![756, 16]⟩
abbrev S16384x16 : Shape := ⟨2, ![16384, 16]⟩
abbrev S1x16 : Shape := ⟨2, ![1, 16]⟩

abbrev nBuf : Space → Nat
  | .hbm => 28
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S756x128, .f32⟩
  | .hbm, ⟨2, _⟩ => ⟨S756, .f32⟩
  | .hbm, ⟨3, _⟩ => ⟨S756x756, .f32⟩
  | .hbm, ⟨4, _⟩ => ⟨S756, .f32⟩
  | .hbm, ⟨5, _⟩ => ⟨S16x756, .f32⟩
  | .hbm, ⟨6, _⟩ => ⟨S16, .f32⟩
  | .hbm, ⟨7, _⟩ => ⟨S128x756, .f32⟩
  | .hbm, ⟨8, _⟩ => ⟨S16384x756, .f32⟩
  | .hbm, ⟨9, _⟩ => ⟨S1x756, .f32⟩
  | .hbm, ⟨10, _⟩ => ⟨S16384x756, .f32⟩
  | .hbm, ⟨11, _⟩ => ⟨S16384x756, .f32⟩
  | .hbm, ⟨12, _⟩ => ⟨S_, .f32⟩
  | .hbm, ⟨13, _⟩ => ⟨S16384x756, .f32⟩
  | .hbm, ⟨14, _⟩ => ⟨S16384x756, .f32⟩
  | .hbm, ⟨15, _⟩ => ⟨S756x756, .f32⟩
  | .hbm, ⟨16, _⟩ => ⟨S16384x756, .f32⟩
  | .hbm, ⟨17, _⟩ => ⟨S1x756, .f32⟩
  | .hbm, ⟨18, _⟩ => ⟨S16384x756, .f32⟩
  | .hbm, ⟨19, _⟩ => ⟨S16384x756, .f32⟩
  | .hbm, ⟨20, _⟩ => ⟨S_, .f32⟩
  | .hbm, ⟨21, _⟩ => ⟨S16384x756, .f32⟩
  | .hbm, ⟨22, _⟩ => ⟨S16384x756, .f32⟩
  | .hbm, ⟨23, _⟩ => ⟨S756x16, .f32⟩
  | .hbm, ⟨24, _⟩ => ⟨S16384x16, .f32⟩
  | .hbm, ⟨25, _⟩ => ⟨S1x16, .f32⟩
  | .hbm, ⟨26, _⟩ => ⟨S16384x16, .f32⟩
  | .hbm, ⟨27, _⟩ => ⟨S16384x16, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S756x128_S128x756_1_0 : S756x128.Transposes [1, 0] S128x756
  bcast_S756_S1x756_1 : S756.BroadcastsInDim S1x756 (![1] : Fin 1 → Fin S1x756.rank)
  bcast_S1x756_S16384x756_0_1 : S1x756.BroadcastsInDim S16384x756 (![0, 1] : Fin 2 → Fin S16384x756.rank)
  bcast_S_S16384x756 : S_.BroadcastsInDim S16384x756 (![] : Fin 0 → Fin S16384x756.rank)
  transposes_S756x756_S756x756_1_0 : S756x756.Transposes [1, 0] S756x756
  transposes_S16x756_S756x16_1_0 : S16x756.Transposes [1, 0] S756x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  dot_S16384x128_S128x756_S16384x756_1_0_0_1_n_n_wf : DotDims.WF S16384x128 S128x756 S16384x756 [1] [0] [0] [1] [] []
  dot_S16384x756_S756x756_S16384x756_1_0_0_1_n_n_wf : DotDims.WF S16384x756 S756x756 S16384x756 [1] [0] [0] [1] [] []
  dot_S16384x756_S756x16_S16384x16_1_0_0_1_n_n_wf : DotDims.WF S16384x756 S756x16 S16384x16 [1] [0] [0] [1] [] []

variable [Facts₀]

def dot_S16384x128_S128x756_S16384x756_1_0_0_1_n_n : DotDims S16384x128 S128x756 S16384x756 where
  lhsContracting := [1]
  rhsContracting := [0]
  lhsNonContracting := [0]
  rhsNonContracting := [1]
  lhsBatch := []
  rhsBatch := []
  wf := dot_S16384x128_S128x756_S16384x756_1_0_0_1_n_n_wf
def dot_S16384x756_S756x756_S16384x756_1_0_0_1_n_n : DotDims S16384x756 S756x756 S16384x756 where
  lhsContracting := [1]
  rhsContracting := [0]
  lhsNonContracting := [0]
  rhsNonContracting := [1]
  lhsBatch := []
  rhsBatch := []
  wf := dot_S16384x756_S756x756_S16384x756_1_0_0_1_n_n_wf
def dot_S16384x756_S756x16_S16384x16_1_0_0_1_n_n : DotDims S16384x756 S756x16 S16384x16 where
  lhsContracting := [1]
  rhsContracting := [0]
  lhsNonContracting := [0]
  rhsNonContracting := [1]
  lhsBatch := []
  rhsBatch := []
  wf := dot_S16384x756_S756x16_S16384x16_1_0_0_1_n_n_wf

class Facts : Prop extends Facts₀ where

variable [Facts]
-- ==== Proof.Mlp.lean ====
/-
  The function both programs compute: a three-layer perceptron over the extended reals, one batch row at a time.
  For a row x of 128 features,
      h₁(j) = max (Σₖ x(k)·W₁(j,k) + b₁(j)) 0      (j < 756)
      h₂(j) = max (Σₖ h₁(k)·W₂(j,k) + b₂(j)) 0     (j < 756)
      y(a)  =      Σₖ h₂(k)·W₃(a,k) + b₃(a)         (a < 16).
  Every weight matrix is stored (fan_out, fan_in), so each layer contracts the SECOND axis of both of its operands:
  entry (r, j) of a layer's product pairs row r of the activations with row j of the weights.
  The threshold of the two rectifiers is the f32 word 0x00000000 read at the ideal instance; both programs spell it with
  that word, so it is carried as it stands and never evaluated.
  A row of the result depends on the same row of the input only, which is why a block of rows of the result is the
  same function of the matching block of rows of the input.
-/
import Idealize.ShloMosaic.PureOps.Ideal
import Idealize.ShloMosaic.Lib.ValueIdx

noncomputable section

namespace Cert.Mlp

open Idealize.ShloMosaic Idealize.ShloMosaic.ValueIdx

/-- First hidden unit `j` of the row `x`: the rectified affine form of the row against weight row `j`. -/
def hidden1 (x : Fin 128 → EReal) (W1 : Fin 756 → Fin 128 → EReal) (b1 : Fin 756 → EReal) (j : Fin 756) : EReal :=
  max ((∑ k : Fin 128, x k * W1 j k) + b1 j) (Ideal.ofBits .f32 0x00000000#32)

/-- Second hidden unit `j`: the same form over the first hidden layer. -/
def hidden2 (x : Fin 128 → EReal) (W1 : Fin 756 → Fin 128 → EReal) (b1 : Fin 756 → EReal)
    (W2 : Fin 756 → Fin 756 → EReal) (b2 : Fin 756 → EReal) (j : Fin 756) : EReal :=
  max ((∑ k : Fin 756, hidden1 x W1 b1 k * W2 j k) + b2 j) (Ideal.ofBits .f32 0x00000000#32)

/-- Output unit `a`: the affine form over the second hidden layer, not rectified. -/
def action (x : Fin 128 → EReal) (W1 : Fin 756 → Fin 128 → EReal) (b1 : Fin 756 → EReal)
    (W2 : Fin 756 → Fin 756 → EReal) (b2 : Fin 756 → EReal) (W3 : Fin 16 → Fin 756 → EReal) (b3 : Fin 16 → EReal)
    (a : Fin 16) : EReal :=
  (∑ k : Fin 756, hidden2 x W1 b1 W2 b2 k * W3 a k) + b3 a

/-- The whole result array as one function of the seven argument arrays: entry (r, a) is output unit `a` of row `r`
    of the input. -/
def G (X : (⟨2, ![16384, 128]⟩ : Shape).Idx → EReal) (W1 : (⟨2, ![756, 128]⟩ : Shape).Idx → EReal)
    (b1 : (⟨1, ![756]⟩ : Shape).Idx → EReal) (W2 : (⟨2, ![756, 756]⟩ : Shape).Idx → EReal)
    (b2 : (⟨1, ![756]⟩ : Shape).Idx → EReal) (W3 : (⟨2, ![16, 756]⟩ : Shape).Idx → EReal)
    (b3 : (⟨1, ![16]⟩ : Shape).Idx → EReal) : (⟨2, ![16384, 16]⟩ : Shape).Idx → EReal :=
  fun i => action (fun k => X (ix2 (⟨(i 0).val, (i 0).isLt⟩ : Fin 16384) k)) (fun j k => W1 (ix2 j k)) (fun j => b1 (ix1 j))
    (fun j k => W2 (ix2 j k)) (fun j => b2 (ix1 j)) (fun j k => W3 (ix2 j k)) (fun j => b3 (ix1 j))
    (⟨(i 1).val, (i 1).isLt⟩ : Fin 16)

/-- `G` at the index built from a row `r` and a unit `a`. -/
theorem G_ix2 (X : (⟨2, ![16384, 128]⟩ : Shape).Idx → EReal) (W1 : (⟨2, ![756, 128]⟩ : Shape).Idx → EReal)
    (b1 : (⟨1, ![756]⟩ : Shape).Idx → EReal) (W2 : (⟨2, ![756, 756]⟩ : Shape).Idx → EReal)
    (b2 : (⟨1, ![756]⟩ : Shape).Idx → EReal) (W3 : (⟨2, ![16, 756]⟩ : Shape).Idx → EReal)
    (b3 : (⟨1, ![16]⟩ : Shape).Idx → EReal) (r : Fin 16384) (a : Fin 16) :
    G X W1 b1 W2 b2 W3 b3 (ix2 r a) = action (fun k => X (ix2 r k)) (fun j k => W1 (ix2 j k)) (fun j => b1 (ix1 j))
      (fun j k => W2 (ix2 j k)) (fun j => b2 (ix1 j)) (fun j k => W3 (ix2 j k)) (fun j => b3 (ix1 j)) a := rfl

/-- `G` at an index whose coordinates, as numbers, are those of row `r` and unit `a`. -/
theorem G_of_val (X : (⟨2, ![16384, 128]⟩ : Shape).Idx → EReal) (W1 : (⟨2, ![756, 128]⟩ : Shape).Idx → EReal)
    (b1 : (⟨1, ![756]⟩ : Shape).Idx → EReal) (W2 : (⟨2, ![756, 756]⟩ : Shape).Idx → EReal)
    (b2 : (⟨1, ![756]⟩ : Shape).Idx → EReal) (W3 : (⟨2, ![16, 756]⟩ : Shape).Idx → EReal)
    (b3 : (⟨1, ![16]⟩ : Shape).Idx → EReal) (i : (⟨2, ![16384, 16]⟩ : Shape).Idx) (r : Fin 16384) (a : Fin 16)
    (hr : (i 0).val = r.val) (ha : (i 1).val = a.val) :
    G X W1 b1 W2 b2 W3 b3 i = action (fun k => X (ix2 r k)) (fun j k => W1 (ix2 j k)) (fun j => b1 (ix1 j))
      (fun j k => W2 (ix2 j k)) (fun j => b2 (ix1 j)) (fun j k => W3 (ix2 j k)) (fun j => b3 (ix1 j)) a := by
  have e : i = ix2 r a := funext fun d => Fin.ext (by
    match d with
    | ⟨0, _⟩ => exact hr
    | ⟨1, _⟩ => exact ha)
  rw [e, G_ix2]

end Cert.Mlp

end
-- ==== Proof.RefMlp.lean ====
/-
  The reference's result is the perceptron `Mlp.G` of its arguments, entry by entry.
  The reference transposes each weight matrix and contracts the activations' second axis with the transposed
  matrix's first: entry (r, j) of the product is Σₖ act(r,k)·Wᵀ(k,j) = Σₖ act(r,k)·W(j,k), the affine form of
  `Mlp`. A bias of length n is first laid out as one row [1, n] and then repeated down the rows, so at (r, j) it
  reads b(j); the rectifier is the maximum with a splat of the zero word.
  Each stage is read at the index built from a row and a unit; the three layers are then chained.
-/
import proofs.«134456_g39943195853490_cont_8to1_b_464_9_alg».proof.Proof.Gen.ReferenceIdeal.Read
import proofs.«134456_g39943195853490_cont_8to1_b_464_9_alg».proof.Proof.Mlp

noncomputable section

namespace Cert.ReferenceIdeal.RefMlp

open Cert.ReferenceIdeal Cert.ReferenceIdeal.Read Idealize.ShloMosaic Idealize.ShloMosaic.ValueIdx

variable (x0 : (⟨S16384x128, .f32⟩ : BufTy).Contents (Elt Ideal)) (x1 : (⟨S756x128, .f32⟩ : BufTy).Contents (Elt Ideal))
  (x2 : (⟨S756, .f32⟩ : BufTy).Contents (Elt Ideal)) (x3 : (⟨S756x756, .f32⟩ : BufTy).Contents (Elt Ideal))
  (x4 : (⟨S756, .f32⟩ : BufTy).Contents (Elt Ideal)) (x5 : (⟨S16x756, .f32⟩ : BufTy).Contents (Elt Ideal))
  (x6 : (⟨S16, .f32⟩ : BufTy).Contents (Elt Ideal))

/-- The first rectified layer at row `r`, unit `j`. -/
theorem hidden1_eq (r : Fin 16384) (j : Fin 756) :
    val_main_v5 (F := Ideal) x0 x1 x2 (ix2 r j)
      = Cert.Mlp.hidden1 (fun k => x0 (ix2 r k)) (fun j k => x1 (ix2 j k)) (fun j => x2 (ix1 j)) j := by
  have e1 : ∀ k : Fin 128, lidx_main_v1 (ix2 r j) k = ix2 r k := fun k => funext fun a => by
    match a with
    | ⟨0, _⟩ => rfl
    | ⟨1, _⟩ => rfl
  have e2 : ∀ k : Fin 128, idx_main_v0 (ridx_main_v1 (ix2 r j) k) = ix2 j k := fun k => funext fun a => by
    match a with
    | ⟨0, _⟩ => rfl
    | ⟨1, _⟩ => rfl
  have e3 : idx_main_v2 (idx_main_v3 (ix2 r j)) = ix1 j := funext fun a => by
    match a with
    | ⟨0, _⟩ => rfl
  rw [val_main_v5_apply, val_main_v4_apply, val_main_v1_apply, val_main_v3_apply, val_main_v2_apply,
    val_main_call0_v0_apply, val_main_call0_cst_apply]
  simp only [val_main_v0_apply, e1, e2, e3]
  rfl

/-- The second rectified layer at row `r`, unit `j`. -/
theorem hidden2_eq (r : Fin 16384) (j : Fin 756) :
    val_main_v11 (F := Ideal) x0 x1 x2 x3 x4 (ix2 r j)
      = Cert.Mlp.hidden2 (fun k => x0 (ix2 r k)) (fun j k => x1 (ix2 j k)) (fun j => x2 (ix1 j))
          (fun j k => x3 (ix2 j k)) (fun j => x4 (ix1 j)) j := by
  have e1 : ∀ k : Fin 756, lidx_main_v7 (ix2 r j) k = ix2 r k := fun k => funext fun a => by
    match a with
    | ⟨0, _⟩ => rfl
    | ⟨1, _⟩ => rfl
  have e2 : ∀ k : Fin 756, idx_main_v6 (ridx_main_v7 (ix2 r j) k) = ix2 j k := fun k => funext fun a => by
    match a with
    | ⟨0, _⟩ => rfl
    | ⟨1, _⟩ => rfl
  have e3 : idx_main_v8 (idx_main_v9 (ix2 r j)) = ix1 j := funext fun a => by
    match a with
    | ⟨0, _⟩ => rfl
  rw [val_main_v11_apply, val_main_v10_apply, val_main_v7_apply, val_main_v9_apply, val_main_v8_apply,
    val_main_call1_v0_apply, val_main_call1_cst_apply]
  simp only [val_main_v6_apply, e1, e2, e3, hidden1_eq]
  rfl

/-- The output layer at row `r`, unit `a`. -/
theorem action_eq (r : Fin 16384) (a : Fin 16) :
    val_main_v16 (F := Ideal) x0 x1 x2 x3 x4 x5 x6 (ix2 r a)
      = Cert.Mlp.action (fun k => x0 (ix2 r k)) (fun j k => x1 (ix2 j k)) (fun j => x2 (ix1 j))
          (fun j k => x3 (ix2 j k)) (fun j => x4 (ix1 j)) (fun j k => x5 (ix2 j k)) (fun j => x6 (ix1 j)) a := by
  have e1 : ∀ k : Fin 756, lidx_main_v13 (ix2 r a) k = ix2 r k := fun k => funext fun d => by
    match d with
    | ⟨0, _⟩ => rfl
    | ⟨1, _⟩ => rfl
  have e2 : ∀ k : Fin 756, idx_main_v12 (ridx_main_v13 (ix2 r a) k) = ix2 a k := fun k => funext fun d => by
    match d with
    | ⟨0, _⟩ => rfl
    | ⟨1, _⟩ => rfl
  have e3 : idx_main_v14 (idx_main_v15 (ix2 r a)) = ix1 a := funext fun d => by
    match d with
    | ⟨0, _⟩ => rfl
  rw [val_main_v16_apply, val_main_v13_apply, val_main_v15_apply, val_main_v14_apply]
  simp only [val_main_v12_apply, e1, e2, e3, hidden2_eq]
  rfl

/-- The reference's last stage is `Mlp.G` of the arguments. -/
theorem result_eq : val_main_v16 (F := Ideal) x0 x1 x2 x3 x4 x5 x6 = Cert.Mlp.G x0 x1 x2 x3 x4 x5 x6 := by
  funext i
  obtain ⟨r, a, rfl⟩ : ∃ (r : Fin 16384) (a : Fin 16), i = ix2 r a := ⟨i 0, i 1, eq_ix2 i⟩
  rw [Cert.Mlp.G_ix2, action_eq]

end Cert.ReferenceIdeal.RefMlp

end
-- ==== Proof.BodyMlp.lean ====
/-
  What the kernel's body stores, entry by entry: one block of 8192 rows of the perceptron `Mlp`.
  Each of the three matrix products contracts the second axis of both operands into a zero accumulator, so its entry
  (p, j) is the sum over k of row p of the activations against row j of the weights. The narrowing of every operand to
  bf16 is the identity on extended reals. A bias arrives as one row [1, n], is cast to its own shape (the identity)
  and repeated down the 8192 rows, so at (p, j) it reads its entry (0, j). The rectifier is the maximum with a splat
  of the zero word. Chaining the three layers gives `Mlp.action` of row p of the input block.
-/
import proofs.«134456_g39943195853490_cont_8to1_b_464_9_alg».proof.Proof.Gen.KernelIdeal.Skeleton
import proofs.«134456_g39943195853490_cont_8to1_b_464_9_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyMlp

open Cert.KernelIdeal Cert.KernelIdeal.Gen
open Idealize.ShloMosaic Idealize.ShloMosaic.ValueIdx

/-! ### The product 1: `[8192, 128]` by `[756, 128]`, both contracted on their second axis -/

theorem lhs1_0 (i : S8192x756.Idx) (q : dot_S8192x128_S756x128_S8192x756_1_1_0_0_n_n.contr.Idx) :
    (dot_S8192x128_S756x128_S8192x756_1_1_0_0_n_n.lhsIdx i q 0).val = (i 0).val := by
  unfold DotDims.lhsIdx
  rw [dif_neg (show ¬(0 : Fin S8192x128.rank) ∈ dot_S8192x128_S756x128_S8192x756_1_1_0_0_n_n.lhsBatch by decide), dif_pos (show (0 : Fin S8192x128.rank) ∈ dot_S8192x128_S756x128_S8192x756_1_1_0_0_n_n.lhsNonContracting by decide)]
  rfl
theorem lhs1_1 (i : S8192x756.Idx) (q : dot_S8192x128_S756x128_S8192x756_1_1_0_0_n_n.contr.Idx) :
    (dot_S8192x128_S756x128_S8192x756_1_1_0_0_n_n.lhsIdx i q 1).val = (q ⟨0, by decide⟩).val :=
  dot_S8192x128_S756x128_S8192x756_1_1_0_0_n_n.lhsIdx_val_of_single rfl i q
theorem rhs1_0 (i : S8192x756.Idx) (q : dot_S8192x128_S756x128_S8192x756_1_1_0_0_n_n.contr.Idx) :
    (dot_S8192x128_S756x128_S8192x756_1_1_0_0_n_n.rhsIdx i q 0).val = (i 1).val := by
  unfold DotDims.rhsIdx
  rw [dif_neg (show ¬(0 : Fin S756x128.rank) ∈ dot_S8192x128_S756x128_S8192x756_1_1_0_0_n_n.rhsBatch by decide), dif_pos (show (0 : Fin S756x128.rank) ∈ dot_S8192x128_S756x128_S8192x756_1_1_0_0_n_n.rhsNonContracting by decide)]
  rfl
theorem rhs1_1 (i : S8192x756.Idx) (q : dot_S8192x128_S756x128_S8192x756_1_1_0_0_n_n.contr.Idx) :
    (dot_S8192x128_S756x128_S8192x756_1_1_0_0_n_n.rhsIdx i q 1).val = (q ⟨0, by decide⟩).val :=
  dot_S8192x128_S756x128_S8192x756_1_1_0_0_n_n.rhsIdx_val_of_single rfl i q

/-- Into a zero accumulator, entry (p, j) of the product is the sum over the shared axis of row `p` of the left
    operand against row `j` of the right one. -/
theorem matmul1_apply (l : FVec Ideal S8192x128 .bf16) (w : FVec Ideal S756x128 .bf16) (p : Fin 8192) (j : Fin 756) :
    matmul dot_S8192x128_S756x128_S8192x756_1_1_0_0_n_n none l w (constant (F := Ideal) S8192x756 .f32 0x00000000#32) (ix2 p j)
      = ∑ k : Fin 128, l (ix2 p k) * w (ix2 j k) := by
  simp only [matmul]
  rw [Ideal.matmul_constant_zero_apply, ← Equiv.sum_comp (ValueIdx.contrEquiv1 dot_S8192x128_S756x128_S8192x756_1_1_0_0_n_n 128 rfl rfl).symm]
  refine Finset.sum_congr rfl fun k _ => ?_
  have hk := ValueIdx.contrEquiv1_symm_val dot_S8192x128_S756x128_S8192x756_1_1_0_0_n_n 128 rfl rfl k
  have el : dot_S8192x128_S756x128_S8192x756_1_1_0_0_n_n.lhsIdx (ix2 p j) ((ValueIdx.contrEquiv1 dot_S8192x128_S756x128_S8192x756_1_1_0_0_n_n 128 rfl rfl).symm k) = ix2 p k := funext fun a => Fin.ext (by
    match a with
    | ⟨0, _⟩ => exact lhs1_0 _ _
    | ⟨1, _⟩ => exact (lhs1_1 _ _).trans hk)
  have er : dot_S8192x128_S756x128_S8192x756_1_1_0_0_n_n.rhsIdx (ix2 p j) ((ValueIdx.contrEquiv1 dot_S8192x128_S756x128_S8192x756_1_1_0_0_n_n 128 rfl rfl).symm k) = ix2 j k := funext fun a => Fin.ext (by
    match a with
    | ⟨0, _⟩ => exact rhs1_0 _ _
    | ⟨1, _⟩ => exact (rhs1_1 _ _).trans hk)
  rw [el, er]

/-! ### The product 2: `[8192, 756]` by `[756, 756]`, both contracted on their second axis -/

theorem lhs2_0 (i : S8192x756.Idx) (q : dot_S8192x756_S756x756_S8192x756_1_1_0_0_n_n.contr.Idx) :
    (dot_S8192x756_S756x756_S8192x756_1_1_0_0_n_n.lhsIdx i q 0).val = (i 0).val := by
  unfold DotDims.lhsIdx
  rw [dif_neg (show ¬(0 : Fin S8192x756.rank) ∈ dot_S8192x756_S756x756_S8192x756_1_1_0_0_n_n.lhsBatch by decide), dif_pos (show (0 : Fin S8192x756.rank) ∈ dot_S8192x756_S756x756_S8192x756_1_1_0_0_n_n.lhsNonContracting by decide)]
  rfl
theorem lhs2_1 (i : S8192x756.Idx) (q : dot_S8192x756_S756x756_S8192x756_1_1_0_0_n_n.contr.Idx) :
    (dot_S8192x756_S756x756_S8192x756_1_1_0_0_n_n.lhsIdx i q 1).val = (q ⟨0, by decide⟩).val :=
  dot_S8192x756_S756x756_S8192x756_1_1_0_0_n_n.lhsIdx_val_of_single rfl i q
theorem rhs2_0 (i : S8192x756.Idx) (q : dot_S8192x756_S756x756_S8192x756_1_1_0_0_n_n.contr.Idx) :
    (dot_S8192x756_S756x756_S8192x756_1_1_0_0_n_n.rhsIdx i q 0).val = (i 1).val := by
  unfold DotDims.rhsIdx
  rw [dif_neg (show ¬(0 : Fin S756x756.rank) ∈ dot_S8192x756_S756x756_S8192x756_1_1_0_0_n_n.rhsBatch by decide), dif_pos (show (0 : Fin S756x756.rank) ∈ dot_S8192x756_S756x756_S8192x756_1_1_0_0_n_n.rhsNonContracting by decide)]
  rfl
theorem rhs2_1 (i : S8192x756.Idx) (q : dot_S8192x756_S756x756_S8192x756_1_1_0_0_n_n.contr.Idx) :
    (dot_S8192x756_S756x756_S8192x756_1_1_0_0_n_n.rhsIdx i q 1).val = (q ⟨0, by decide⟩).val :=
  dot_S8192x756_S756x756_S8192x756_1_1_0_0_n_n.rhsIdx_val_of_single rfl i q

/-- Into a zero accumulator, entry (p, j) of the product is the sum over the shared axis of row `p` of the left
    operand against row `j` of the right one. -/
theorem matmul2_apply (l : FVec Ideal S8192x756 .bf16) (w : FVec Ideal S756x756 .bf16) (p : Fin 8192) (j : Fin 756) :
    matmul dot_S8192x756_S756x756_S8192x756_1_1_0_0_n_n none l w (constant (F := Ideal) S8192x756 .f32 0x00000000#32) (ix2 p j)
      = ∑ k : Fin 756, l (ix2 p k) * w (ix2 j k) := by
  simp only [matmul]
  rw [Ideal.matmul_constant_zero_apply, ← Equiv.sum_comp (ValueIdx.contrEquiv1 dot_S8192x756_S756x756_S8192x756_1_1_0_0_n_n 756 rfl rfl).symm]
  refine Finset.sum_congr rfl fun k _ => ?_
  have hk := ValueIdx.contrEquiv1_symm_val dot_S8192x756_S756x756_S8192x756_1_1_0_0_n_n 756 rfl rfl k
  have el : dot_S8192x756_S756x756_S8192x756_1_1_0_0_n_n.lhsIdx (ix2 p j) ((ValueIdx.contrEquiv1 dot_S8192x756_S756x756_S8192x756_1_1_0_0_n_n 756 rfl rfl).symm k) = ix2 p k := funext fun a => Fin.ext (by
    match a with
    | ⟨0, _⟩ => exact lhs2_0 _ _
    | ⟨1, _⟩ => exact (lhs2_1 _ _).trans hk)
  have er : dot_S8192x756_S756x756_S8192x756_1_1_0_0_n_n.rhsIdx (ix2 p j) ((ValueIdx.contrEquiv1 dot_S8192x756_S756x756_S8192x756_1_1_0_0_n_n 756 rfl rfl).symm k) = ix2 j k := funext fun a => Fin.ext (by
    match a with
    | ⟨0, _⟩ => exact rhs2_0 _ _
    | ⟨1, _⟩ => exact (rhs2_1 _ _).trans hk)
  rw [el, er]

/-! ### The product 3: `[8192, 756]` by `[16, 756]`, both contracted on their second axis -/

theorem lhs3_0 (i : S8192x16.Idx) (q : dot_S8192x756_S16x756_S8192x16_1_1_0_0_n_n.contr.Idx) :
    (dot_S8192x756_S16x756_S8192x16_1_1_0_0_n_n.lhsIdx i q 0).val = (i 0).val := by
  unfold DotDims.lhsIdx
  rw [dif_neg (show ¬(0 : Fin S8192x756.rank) ∈ dot_S8192x756_S16x756_S8192x16_1_1_0_0_n_n.lhsBatch by decide), dif_pos (show (0 : Fin S8192x756.rank) ∈ dot_S8192x756_S16x756_S8192x16_1_1_0_0_n_n.lhsNonContracting by decide)]
  rfl
theorem lhs3_1 (i : S8192x16.Idx) (q : dot_S8192x756_S16x756_S8192x16_1_1_0_0_n_n.contr.Idx) :
    (dot_S8192x756_S16x756_S8192x16_1_1_0_0_n_n.lhsIdx i q 1).val = (q ⟨0, by decide⟩).val :=
  dot_S8192x756_S16x756_S8192x16_1_1_0_0_n_n.lhsIdx_val_of_single rfl i q
theorem rhs3_0 (i : S8192x16.Idx) (q : dot_S8192x756_S16x756_S8192x16_1_1_0_0_n_n.contr.Idx) :
    (dot_S8192x756_S16x756_S8192x16_1_1_0_0_n_n.rhsIdx i q 0).val = (i 1).val := by
  unfold DotDims.rhsIdx
  rw [dif_neg (show ¬(0 : Fin S16x756.rank) ∈ dot_S8192x756_S16x756_S8192x16_1_1_0_0_n_n.rhsBatch by decide), dif_pos (show (0 : Fin S16x756.rank) ∈ dot_S8192x756_S16x756_S8192x16_1_1_0_0_n_n.rhsNonContracting by decide)]
  rfl
theorem rhs3_1 (i : S8192x16.Idx) (q : dot_S8192x756_S16x756_S8192x16_1_1_0_0_n_n.contr.Idx) :
    (dot_S8192x756_S16x756_S8192x16_1_1_0_0_n_n.rhsIdx i q 1).val = (q ⟨0, by decide⟩).val :=
  dot_S8192x756_S16x756_S8192x16_1_1_0_0_n_n.rhsIdx_val_of_single rfl i q

/-- Into a zero accumulator, entry (p, j) of the product is the sum over the shared axis of row `p` of the left
    operand against row `j` of the right one. -/
theorem matmul3_apply (l : FVec Ideal S8192x756 .bf16) (w : FVec Ideal S16x756 .bf16) (p : Fin 8192) (j : Fin 16) :
    matmul dot_S8192x756_S16x756_S8192x16_1_1_0_0_n_n none l w (constant (F := Ideal) S8192x16 .f32 0x00000000#32) (ix2 p j)
      = ∑ k : Fin 756, l (ix2 p k) * w (ix2 j k) := by
  simp only [matmul]
  rw [Ideal.matmul_constant_zero_apply, ← Equiv.sum_comp (ValueIdx.contrEquiv1 dot_S8192x756_S16x756_S8192x16_1_1_0_0_n_n 756 rfl rfl).symm]
  refine Finset.sum_congr rfl fun k _ => ?_
  have hk := ValueIdx.contrEquiv1_symm_val dot_S8192x756_S16x756_S8192x16_1_1_0_0_n_n 756 rfl rfl k
  have el : dot_S8192x756_S16x756_S8192x16_1_1_0_0_n_n.lhsIdx (ix2 p j) ((ValueIdx.contrEquiv1 dot_S8192x756_S16x756_S8192x16_1_1_0_0_n_n 756 rfl rfl).symm k) = ix2 p k := funext fun a => Fin.ext (by
    match a with
    | ⟨0, _⟩ => exact lhs3_0 _ _
    | ⟨1, _⟩ => exact (lhs3_1 _ _).trans hk)
  have er : dot_S8192x756_S16x756_S8192x16_1_1_0_0_n_n.rhsIdx (ix2 p j) ((ValueIdx.contrEquiv1 dot_S8192x756_S16x756_S8192x16_1_1_0_0_n_n 756 rfl rfl).symm k) = ix2 j k := funext fun a => Fin.ext (by
    match a with
    | ⟨0, _⟩ => exact rhs3_0 _ _
    | ⟨1, _⟩ => exact (rhs3_1 _ _).trans hk)
  rw [el, er]

/-! ### The layers -/

/-- A rectified layer at (p, j): the product's entry, plus the bias row repeated down the rows, against the zero splat
    (the bias row's cast to its own shape already dropped). -/
theorem layer1_apply (l : FVec Ideal S8192x128 .bf16) (w : FVec Ideal S756x128 .bf16) (b : FVec Ideal S1x756 .f32) (p : Fin 8192) (j : Fin 756) :
    maximumf (addf (matmul dot_S8192x128_S756x128_S8192x756_1_1_0_0_n_n none l w (constant (F := Ideal) S8192x756 .f32 0x00000000#32))
        (broadcastTo S8192x756 b broadcasts_S1x756_S8192x756))
      (broadcast S8192x756 (Scalar.ofBits (F := Ideal) .f32 0x00000000#32)) (ix2 p j)
      = max ((∑ k : Fin 128, l (ix2 p k) * w (ix2 j k)) + b (ix2 (0 : Fin 1) j)) (Ideal.ofBits .f32 0x00000000#32) := by
  rw [maximumf_apply, addf_apply, matmul1_apply, broadcastTo_1b_ab_apply]
  rfl

/-- A rectified layer at (p, j): the product's entry, plus the bias row repeated down the rows, against the zero splat. -/
theorem layer2_apply (l : FVec Ideal S8192x756 .bf16) (w : FVec Ideal S756x756 .bf16) (b : FVec Ideal S1x756 .f32) (p : Fin 8192) (j : Fin 756) :
    maximumf (addf (matmul dot_S8192x756_S756x756_S8192x756_1_1_0_0_n_n none l w (constant (F := Ideal) S8192x756 .f32 0x00000000#32))
        (broadcastTo S8192x756 b broadcasts_S1x756_S8192x756))
      (broadcast S8192x756 (Scalar.ofBits (F := Ideal) .f32 0x00000000#32)) (ix2 p j)
      = max ((∑ k : Fin 756, l (ix2 p k) * w (ix2 j k)) + b (ix2 (0 : Fin 1) j)) (Ideal.ofBits .f32 0x00000000#32) := by
  rw [maximumf_apply, addf_apply, matmul2_apply, broadcastTo_1b_ab_apply]
  rfl

/-- The stored value at row `p`, unit `a` of the block is output unit `a` of the perceptron on row `p` of the input block. -/
theorem payload_apply (v0 : Vec Ideal S8192x128 .f32) (v2 : Vec Ideal S756x128 .f32) (v5 : Vec Ideal S1x756 .f32)
    (v12 : Vec Ideal S756x756 .f32) (v15 : Vec Ideal S1x756 .f32) (v22 : Vec Ideal S16x756 .f32) (v25 : Vec Ideal S1x16 .f32)
    (p : Fin 8192) (a : Fin 16) :
    k0_pay1 (F := Ideal) v0 v2 v5 v12 v15 v22 v25 (ix2 p a)
      = Cert.Mlp.action (fun k => v0 (ix2 p k)) (fun j k => v2 (ix2 j k)) (fun j => v5 (ix2 (0 : Fin 1) j))
          (fun j k => v12 (ix2 j k)) (fun j => v15 (ix2 (0 : Fin 1) j)) (fun j k => v22 (ix2 j k))
          (fun j => v25 (ix2 (0 : Fin 1) j)) a := by
  unfold k0_pay1
  simp only [shapeCast_self]
  rw [addf_apply, matmul3_apply, broadcastTo_1b_ab_apply]
  simp only [truncf_apply, layer2_apply, layer1_apply]
  rfl

/-- The stored entry against the whole-array function. If row `p` of the input block is row `r` of the input array,
    the other six blocks are their arrays whole (the bias blocks being the bias vectors laid out as one row), and the
    array index `i` has row `r` and unit `a`, then the entry stored at (p, a) is `Mlp.G` of the arrays at `i`. -/
theorem payload_eq_G (X : S16384x128.Idx → EReal) (W1 : S756x128.Idx → EReal) (b1 : S756.Idx → EReal)
    (W2 : S756x756.Idx → EReal) (b2 : S756.Idx → EReal) (W3 : S16x756.Idx → EReal) (b3 : S16.Idx → EReal)
    (v0 : Vec Ideal S8192x128 .f32) (v2 : Vec Ideal S756x128 .f32) (v5 : Vec Ideal S1x756 .f32)
    (v12 : Vec Ideal S756x756 .f32) (v15 : Vec Ideal S1x756 .f32) (v22 : Vec Ideal S16x756 .f32) (v25 : Vec Ideal S1x16 .f32)
    (p : Fin 8192) (a : Fin 16) (i : S16384x16.Idx) (r : Fin 16384)
    (hr : (i 0).val = r.val) (ha : (i 1).val = a.val)
    (h0 : ∀ k : Fin 128, v0 (ix2 p k) = X (ix2 r k))
    (h1 : ∀ (j : Fin 756) (k : Fin 128), v2 (ix2 j k) = W1 (ix2 j k))
    (h2 : ∀ j : Fin 756, v5 (ix2 (0 : Fin 1) j) = b1 (ix1 j))
    (h3 : ∀ (j : Fin 756) (k : Fin 756), v12 (ix2 j k) = W2 (ix2 j k))
    (h4 : ∀ j : Fin 756, v15 (ix2 (0 : Fin 1) j) = b2 (ix1 j))
    (h5 : ∀ (j : Fin 16) (k : Fin 756), v22 (ix2 j k) = W3 (ix2 j k))
    (h6 : ∀ j : Fin 16, v25 (ix2 (0 : Fin 1) j) = b3 (ix1 j)) :
    k0_pay1 (F := Ideal) v0 v2 v5 v12 v15 v22 v25 (ix2 p a) = Cert.Mlp.G X W1 b1 W2 b2 W3 b3 i := by
  have e0 : (fun k : Fin 128 => v0 (ix2 p k)) = fun k => X (ix2 r k) := funext h0
  have e1 : (fun (j : Fin 756) (k : Fin 128) => v2 (ix2 j k)) = fun j k => W1 (ix2 j k) := funext fun j => funext (h1 j)
  have e2 : (fun j : Fin 756 => v5 (ix2 (0 : Fin 1) j)) = fun j => b1 (ix1 j) := funext h2
  have e3 : (fun (j : Fin 756) (k : Fin 756) => v12 (ix2 j k)) = fun j k => W2 (ix2 j k) := funext fun j => funext (h3 j)
  have e4 : (fun j : Fin 756 => v15 (ix2 (0 : Fin 1) j)) = fun j => b2 (ix1 j) := funext h4
  have e5 : (fun (j : Fin 16) (k : Fin 756) => v22 (ix2 j k)) = fun j k => W3 (ix2 j k) := funext fun j => funext (h5 j)
  have e6 : (fun j : Fin 16 => v25 (ix2 (0 : Fin 1) j)) = fun j => b3 (ix1 j) := funext h6
  rw [payload_apply, Cert.Mlp.G_of_val X W1 b1 W2 b2 W3 b3 i r a hr ha, e0, e1, e2, e3, e4, e5, e6]

end Cert.KernelIdeal.BodyMlp

end
-- ==== Proof.BlockMlp.lean ====
/-
  From blocks to the array: the kernel's result array is the perceptron `Mlp.G` of the launch contents.
  The grid has two points. At point t the input window is rows [8192·t, 8192·t + 8192) of the input; every weight
  matrix is staged whole at block index (0, 0); each bias is first laid out by the host as one row [1, n] and that row
  is staged whole; the output window is rows [8192·t, 8192·t + 8192) of the result, all 16 columns.
  A row of the perceptron's result depends on the same row of the input only, so what point t writes back —
  the body's stored block — is block t of `Mlp.G`: local row p of the block is array row 8192·t + p on both sides.
  The two blocks tile the 16384 rows (row r lies in block r / 8192), so the array ends as `Mlp.G` everywhere.
-/
import proofs.«134456_g39943195853490_cont_8to1_b_464_9_alg».proof.Proof.Gen.KernelIdeal.Value
import proofs.«134456_g39943195853490_cont_8to1_b_464_9_alg».proof.Proof.BodyMlp
import Idealize.ShloMosaic.Lib.StableHlo.Run
import Idealize.ShloMosaic.Lib.ValueLayout

noncomputable section

namespace Cert.KernelIdeal.BlockMlp

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The perceptron of the seven argument arrays as launched on core `c`. -/
abbrev result (c : Dev nD) : S16384x16.Idx → EReal :=
  Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem zero_off : (![0, 0] : Fin 2 → Nat) = fun _ => 0 := funext fun a => by
  match a with
  | ⟨0, _⟩ => rfl
  | ⟨1, _⟩ => rfl

/-! ## The three bias rows the region finds: the host's reshapes of the bias vectors -/

theorem bias1_row (c : Dev nD) :
    (V m c main_call0_v0 : S1x756.Idx → EReal) = shapeCast S1x756 (m ((c : Thread nD τ).loc main_arg2)) shapeCasts_S756_S1x756 := by
  dsimp only [V, hostOps0]; after_results; rfl
theorem bias2_row (c : Dev nD) :
    (V m c main_call0_v1 : S1x756.Idx → EReal) = shapeCast S1x756 (m ((c : Thread nD τ).loc main_arg4)) shapeCasts_S756_S1x756 := by
  dsimp only [V, hostOps0]; after_results; rfl
theorem bias3_row (c : Dev nD) :
    (V m c main_call0_v2 : S1x16.Idx → EReal) = shapeCast S1x16 (m ((c : Thread nD τ).loc main_arg6)) shapeCasts_S16_S1x16 := by
  dsimp only [V, hostOps0]; after_results; rfl

/-! ## The index maps, decided over the two grid points -/

/-- The input window moves with the output window down the rows and stays at column block 0. -/
theorem idx0 : ∀ t : Fin cfg0.N, win0_0.index t (0 : Fin 2) = win0_7.index t (0 : Fin 2) ∧ win0_0.index t (1 : Fin 2) = 0 :=
  (by decide +kernel : ∀ t : Fin grid0.N, _)
/-- The weight and bias windows stay at block (0, 0). -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
/-- The output window's row block is the point's number; its column block is 0. -/
theorem idx7 : ∀ t : Fin cfg0.N, win0_7.index t (0 : Fin 2) = t.val ∧ win0_7.index t (1 : Fin 2) = 0 :=
  (by decide +kernel : ∀ t : Fin grid0.N, _)

/-! ## Each input window's block, read where the output's block says -/

/-- Local row `p` of the input block at point `t` is array row 8192·(row block) + p. -/
theorem rows_block (c : Dev nD) (t : Fin cfg0.N) (p : Fin 8192) (k : Fin 128) (r : Fin 16384)
    (hr : r.val = win0_7.index t (0 : Fin 2) * 8192 + p.val) :
    iblk m c 0 t (ix2 p k) = m ((c : Thread nD τ).loc main_arg0) (ix2 r k) := by
  obtain ⟨e0, e1⟩ := idx0 t
  show V m c main_arg0 (((cfg0.win 0).blk t).view.emb (ix2 p k)) = _
  rw [V_main_arg0]
  refine congrArg _ (funext fun d => Fin.ext ?_)
  match d with
  | ⟨0, _⟩ => show win0_0.index t (0 : Fin 2) * 8192 + 1 * p.val = r.val; omega
  | ⟨1, _⟩ => show win0_0.index t (1 : Fin 2) * 128 + 1 * k.val = k.val; omega

/-- The first weight matrix is staged whole. -/
theorem w1_block (c : Dev nD) (t : Fin cfg0.N) (j : Fin 756) (k : Fin 128) :
    iblk m c 1 t (ix2 j k) = m ((c : Thread nD τ).loc main_arg1) (ix2 j k) := by
  obtain ⟨e0, e1⟩ := idx1 t
  show V m c main_arg1 (((cfg0.win 1).blk t).view.emb (ix2 j k)) = _
  rw [V_main_arg1]
  refine congrArg _ (funext fun d => Fin.ext ?_)
  match d with
  | ⟨0, _⟩ => show win0_1.index t (0 : Fin 2) * 756 + 1 * j.val = j.val; omega
  | ⟨1, _⟩ => show win0_1.index t (1 : Fin 2) * 128 + 1 * k.val = k.val; omega

/-- The second weight matrix is staged whole. -/
theorem w2_block (c : Dev nD) (t : Fin cfg0.N) (j : Fin 756) (k : Fin 756) :
    iblk m c 3 t (ix2 j k) = m ((c : Thread nD τ).loc main_arg3) (ix2 j k) := by
  obtain ⟨e0, e1⟩ := idx3 t
  show V m c main_arg3 (((cfg0.win 3).blk t).view.emb (ix2 j k)) = _
  rw [V_main_arg3]
  refine congrArg _ (funext fun d => Fin.ext ?_)
  match d with
  | ⟨0, _⟩ => show win0_3.index t (0 : Fin 2) * 756 + 1 * j.val = j.val; omega
  | ⟨1, _⟩ => show win0_3.index t (1 : Fin 2) * 756 + 1 * k.val = k.val; omega

/-- The third weight matrix is staged whole. -/
theorem w3_block (c : Dev nD) (t : Fin cfg0.N) (j : Fin 16) (k : Fin 756) :
    iblk m c 5 t (ix2 j k) = m ((c : Thread nD τ).loc main_arg5) (ix2 j k) := by
  obtain ⟨e0, e1⟩ := idx5 t
  show V m c main_arg5 (((cfg0.win 5).blk t).view.emb (ix2 j k)) = _
  rw [V_main_arg5]
  refine congrArg _ (funext fun d => Fin.ext ?_)
  match d with
  | ⟨0, _⟩ => show win0_5.index t (0 : Fin 2) * 16 + 1 * j.val = j.val; omega
  | ⟨1, _⟩ => show win0_5.index t (1 : Fin 2) * 756 + 1 * k.val = k.val; omega

/-- The first bias row, staged whole, reads the bias vector. -/
theorem b1_block (c : Dev nD) (t : Fin cfg0.N) (j : Fin 756) :
    iblk m c 2 t (ix2 (0 : Fin 1) j) = m ((c : Thread nD τ).loc main_arg2) (ix1 j) := by
  obtain ⟨e0, e1⟩ := idx2 t
  show V m c main_call0_v0 (((cfg0.win 2).blk t).view.emb (ix2 (0 : Fin 1) j)) = _
  have e : ((cfg0.win 2).blk t).view.emb (ix2 (0 : Fin 1) j) = ix2 (0 : Fin 1) j := funext fun d => Fin.ext (by
    match d with
    | ⟨0, _⟩ => show win0_2.index t (0 : Fin 2) * 1 + 1 * 0 = 0; omega
    | ⟨1, _⟩ => show win0_2.index t (1 : Fin 2) * 756 + 1 * j.val = j.val; omega)
  rw [e]
  exact (congrFun (bias1_row m c) _).trans (shapeCast_a_1a_apply _ _ 0 j)

/-- The second bias row, staged whole, reads the bias vector. -/
theorem b2_block (c : Dev nD) (t : Fin cfg0.N) (j : Fin 756) :
    iblk m c 4 t (ix2 (0 : Fin 1) j) = m ((c : Thread nD τ).loc main_arg4) (ix1 j) := by
  obtain ⟨e0, e1⟩ := idx4 t
  show V m c main_call0_v1 (((cfg0.win 4).blk t).view.emb (ix2 (0 : Fin 1) j)) = _
  have e : ((cfg0.win 4).blk t).view.emb (ix2 (0 : Fin 1) j) = ix2 (0 : Fin 1) j := funext fun d => Fin.ext (by
    match d with
    | ⟨0, _⟩ => show win0_4.index t (0 : Fin 2) * 1 + 1 * 0 = 0; omega
    | ⟨1, _⟩ => show win0_4.index t (1 : Fin 2) * 756 + 1 * j.val = j.val; omega)
  rw [e]
  exact (congrFun (bias2_row m c) _).trans (shapeCast_a_1a_apply _ _ 0 j)

/-- The third bias row, staged whole, reads the bias vector. -/
theorem b3_block (c : Dev nD) (t : Fin cfg0.N) (j : Fin 16) :
    iblk m c 6 t (ix2 (0 : Fin 1) j) = m ((c : Thread nD τ).loc main_arg6) (ix1 j) := by
  obtain ⟨e0, e1⟩ := idx6 t
  show V m c main_call0_v2 (((cfg0.win 6).blk t).view.emb (ix2 (0 : Fin 1) j)) = _
  have e : ((cfg0.win 6).blk t).view.emb (ix2 (0 : Fin 1) j) = ix2 (0 : Fin 1) j := funext fun d => Fin.ext (by
    match d with
    | ⟨0, _⟩ => show win0_6.index t (0 : Fin 2) * 1 + 1 * 0 = 0; omega
    | ⟨1, _⟩ => show win0_6.index t (1 : Fin 2) * 16 + 1 * j.val = j.val; omega)
  rw [e]
  exact (congrFun (bias3_row m c) _).trans (shapeCast_a_1a_apply _ _ 0 j)

/-! ## What a point writes back, the cover, and the array -/

/-- What point `t` writes back is block `t` of the perceptron of the launch contents. -/
theorem flushed_eq (c : Dev nD) (t : Fin cfg0.N) :
    (dats m 0 c).flushed 7 t = ((cfg0.win 7).blk t).view.read (Elt Ideal) (result m c) := by
  rw [flushed7]
  unfold out0_7
  rw [View.canon_unit_zero zero_off]
  simp only [View.ld_unit_zero (S := S8192x128) zero_off, View.ld_unit_zero (S := S756x128) zero_off,
    View.ld_unit_zero (S := S1x756) zero_off, View.ld_unit_zero (S := S756x756) zero_off,
    View.ld_unit_zero (S := S16x756) zero_off, View.ld_unit_zero (S := S1x16) zero_off]
  obtain ⟨e70, e71⟩ := idx7 t
  have ht : t.val < 2 := lt_of_lt_of_eq t.isLt N_0
  funext y
  have hy0 : (y 0).val < 8192 := (y 0).isLt
  have hy1 : (y 1).val < 16 := (y 1).isLt
  have hy : y = ix2 (⟨(y 0).val, hy0⟩ : Fin 8192) (⟨(y 1).val, hy1⟩ : Fin 16) := funext fun d => by
    match d with
    | ⟨0, _⟩ => rfl
    | ⟨1, _⟩ => rfl
  show k0_pay1 (F := Ideal) (iblk m c 0 t) (iblk m c 1 t) (iblk m c 2 t) (iblk m c 3 t) (iblk m c 4 t) (iblk m c 5 t) (iblk m c 6 t) y
    = result m c (((cfg0.win 7).blk t).view.emb y)
  refine (congrArg (k0_pay1 (F := Ideal) (iblk m c 0 t) (iblk m c 1 t) (iblk m c 2 t) (iblk m c 3 t) (iblk m c 4 t) (iblk m c 5 t) (iblk m c 6 t)) hy).trans ?_
  exact BodyMlp.payload_eq_G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t)
    ⟨(y 0).val, hy0⟩ ⟨(y 1).val, hy1⟩ (((cfg0.win 7).blk t).view.emb y) ⟨win0_7.index t (0 : Fin 2) * 8192 + (y 0).val, by omega⟩
    (by show win0_7.index t (0 : Fin 2) * 8192 + 1 * (y 0).val = win0_7.index t (0 : Fin 2) * 8192 + (y 0).val; omega)
    (by show win0_7.index t (1 : Fin 2) * 16 + 1 * (y 1).val = (y 1).val; omega)
    (fun k => rows_block m c t _ k _ rfl) (w1_block m c t) (b1_block m c t) (w2_block m c t) (b2_block m c t)
    (w3_block m c t) (b3_block m c t)

/-- An index of the result array is in point `t`'s block iff each coordinate is in the block's range on its axis. -/
theorem mem_blk (t : Fin cfg0.N) (i : S16384x16.Idx) :
    i ∈ ((cfg0.win 7).blk t).view.set ↔ ∀ a : Fin 2, win0_7.index t a * S8192x16.size a ≤ (i a).val ∧ (i a).val < win0_7.index t a * S8192x16.size a + S8192x16.size a := by
  show i ∈ ((View.whole main_v0).slice (win0_7.rect t)).set ↔ _
  rw [View.set_slice_whole, Rect.mem_set_unit]
  exact Iff.rfl

/-- The two blocks tile the rows: row r lies in the block of point r / 8192. -/
theorem cover (i : S16384x16.Idx) : ∃ t : Fin cfg0.N, (cfg0.win 7).flush t = true ∧ i ∈ ((cfg0.win 7).blk t).view.set := by
  have hi0 : (i 0).val < 16384 := (i 0).isLt
  have hi1 : (i 1).val < 16 := (i 1).isLt
  have hN : (i 0).val / 8192 < cfg0.N := lt_of_lt_of_eq (by omega : (i 0).val / 8192 < 2) N_0.symm
  obtain ⟨e70, e71⟩ := idx7 ⟨(i 0).val / 8192, hN⟩
  have e70' : win0_7.index ⟨(i 0).val / 8192, hN⟩ (0 : Fin 2) = (i 0).val / 8192 := e70
  refine ⟨⟨(i 0).val / 8192, hN⟩, flush0_7 _, ?_⟩
  rw [mem_blk]
  intro a
  match a with
  | ⟨0, _⟩ => show win0_7.index ⟨(i 0).val / 8192, hN⟩ (0 : Fin 2) * 8192 ≤ (i 0).val ∧ (i 0).val < win0_7.index ⟨(i 0).val / 8192, hN⟩ (0 : Fin 2) * 8192 + 8192; omega
  | ⟨1, _⟩ => show win0_7.index ⟨(i 0).val / 8192, hN⟩ (1 : Fin 2) * 16 ≤ (i 1).val ∧ (i 1).val < win0_7.index ⟨(i 0).val / 8192, hN⟩ (1 : Fin 2) * 16 + 16; omega

/-- The result array after the run is the perceptron of the launch contents. -/
theorem final (c : Dev nD) : (dats m 0 c).arrAt 7 cfg0.N = result m c :=
  (dats m 0 c).arrAt_eq_of_cover 7 (result m c) (fun t _ => flushed_eq m c t) cover

/-- The kernel's run with its result named: every weakly fair execution ends with the result array at the perceptron
    of the launch contents and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.BlockMlp

end
-- ==== Proof.lean ====
/-
  A fused three-layer perceptron against its plain reference, over the extended reals.
  The kernel walks the 16384 input rows in two blocks of 8192; on each block it forms
      max(x·W₁ᵀ + b₁, 0),  then  max(·W₂ᵀ + b₂, 0),  then  ·W₃ᵀ + b₃,
  each product contracting the second axis of both operands into a zero accumulator, the operands narrowed to bf16
  first (the identity on extended reals). The reference transposes each weight matrix and contracts the activations'
  second axis with the transposed matrix's first. Entry (r, a) of either result is the same nested sum
  Σₖ h₂(r,k)·W₃(a,k) + b₃(a), the sums taken in the same order, the rectifier the same maximum against the same zero
  word: no law of the extended reals beyond reading each operation at an index is used, and the finiteness of the
  inputs is not needed.
  Proof/Mlp.lean states that function once; Proof/RefMlp.lean reads the reference's stages as it; Proof/BodyMlp.lean
  reads the kernel body's stored block as it; Proof/BlockMlp.lean carries the two blocks to the whole array.
  The frames of the two kernel programs are their generated frames; the reference's frame is its run with the result
  dropped; the idealization rewrote nothing, so `preserves` asks nothing.
-/
import proofs.«134456_g39943195853490_cont_8to1_b_464_9_alg».proof.Defs
import proofs.«134456_g39943195853490_cont_8to1_b_464_9_alg».proof.Proof.Gen.Kernel
import proofs.«134456_g39943195853490_cont_8to1_b_464_9_alg».proof.Proof.Gen.Kernel.Skeleton
import proofs.«134456_g39943195853490_cont_8to1_b_464_9_alg».proof.Proof.Gen.Kernel.Launch
import proofs.«134456_g39943195853490_cont_8to1_b_464_9_alg».proof.Proof.Gen.Kernel.Points
import proofs.«134456_g39943195853490_cont_8to1_b_464_9_alg».proof.Proof.Gen.Kernel.Frame
import proofs.«134456_g39943195853490_cont_8to1_b_464_9_alg».proof.Proof.Gen.KernelIdeal
import proofs.«134456_g39943195853490_cont_8to1_b_464_9_alg».proof.Proof.Gen.KernelIdeal.Skeleton
import proofs.«134456_g39943195853490_cont_8to1_b_464_9_alg».proof.Proof.Gen.KernelIdeal.Launch
import proofs.«134456_g39943195853490_cont_8to1_b_464_9_alg».proof.Proof.Gen.KernelIdeal.Points
import proofs.«134456_g39943195853490_cont_8to1_b_464_9_alg».proof.Proof.Gen.KernelIdeal.Frame
import proofs.«134456_g39943195853490_cont_8to1_b_464_9_alg».proof.Proof.Gen.ReferenceIdeal
import proofs.«134456_g39943195853490_cont_8to1_b_464_9_alg».proof.Proof.Gen.Pre_finite_inputs
import proofs.«134456_g39943195853490_cont_8to1_b_464_9_alg».proof.Proof.Gen.KernelIdeal.Value
import proofs.«134456_g39943195853490_cont_8to1_b_464_9_alg».proof.Proof.Gen.ReferenceIdeal.Run
import proofs.«134456_g39943195853490_cont_8to1_b_464_9_alg».proof.Proof.Gen.ReferenceIdeal.Read
import Idealize.ShloMosaic.Adequacy
import Idealize.ShloMosaic.Init
import proofs.«134456_g39943195853490_cont_8to1_b_464_9_alg».proof.Proof.RefMlp
import proofs.«134456_g39943195853490_cont_8to1_b_464_9_alg».proof.Proof.BlockMlp

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `Mlp.G` of arguments that agree. -/
theorem algebraic : Cert.algebraic_KernelIdeal_ReferenceIdeal := by
  intro m ρ m' ρ' _ hagree
  refine ⟨_, Cert.KernelIdeal.BlockMlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefMlp.result_eq,
    (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
